-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S384x4096 : Shape := ⟨2, ![384, 4096]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .local _ .vmem, ⟨0, _⟩ => ⟨S384x4096, .f32⟩
  | .local _ .vmem, ⟨1, _⟩ => ⟨S384x4096, .f32⟩
  | .local _ .vmem, ⟨2, _⟩ => ⟨S384x4096, .f32⟩
  | .local _ .vmem, ⟨3, _⟩ => ⟨S384x4096, .f32⟩
  | .local _ .vmem, ⟨4, _⟩ => ⟨S384x4096, .f32⟩
  | .local _ .vmem, ⟨5, _⟩ => ⟨S384x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S384x4096_S384x4096_0_0 : ∀ a, (![0, 0] : Fin 2 → Nat) a + S384x4096.size a ≤ S384x4096.size a
  h_S384x4096 : 0 < S384x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x4096.size a < S16384x4096.size a
  hwx0_0 : ∀ i : grid0.Coords, EltTy.bits .f32 = 32 ∨ (Rect.unit (s := S16384x4096) (fun a => cc0_transform_0 i a * S384x4096.size a) (fun a => (Pipeline.Clip.of (cc0_transform_0 i a) (S384x4096.size a) (S16384x4096.size a)).extent (S384x4096.size a)) fun a => Pipeline.Clip.inb (Pipeline.Clip.ok_of (hstart0_0 i a))).WholeWords (EltTy.packing .f32)
  hwxs0_0 : ∀ i : grid0.Coords, EltTy.bits .f32 = 32 ∨ (Rect.unit (s := S384x4096) (fun _ => 0) (fun a => (Pipeline.Clip.of (cc0_transform_0 i a) (S384x4096.size a) (S16384x4096.size a)).extent (S384x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S384x4096.size a < S16384x4096.size a
  hwx0_1 : ∀ i : grid0.Coords, EltTy.bits .f32 = 32 ∨ (Rect.unit (s := S16384x4096) (fun a => cc0_transform_1 i a * S384x4096.size a) (fun a => (Pipeline.Clip.of (cc0_transform_1 i a) (S384x4096.size a) (S16384x4096.size a)).extent (S384x4096.size a)) fun a => Pipeline.Clip.inb (Pipeline.Clip.ok_of (hstart0_1 i a))).WholeWords (EltTy.packing .f32)
  hwxs0_1 : ∀ i : grid0.Coords, EltTy.bits .f32 = 32 ∨ (Rect.unit (s := S384x4096) (fun _ => 0) (fun a => (Pipeline.Clip.of (cc0_transform_1 i a) (S384x4096.size a) (S16384x4096.size a)).extent (S384x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S384x4096.size a < S16384x4096.size a
  hwx0_2 : ∀ i : grid0.Coords, EltTy.bits .f32 = 32 ∨ (Rect.unit (s := S16384x4096) (fun a => cc0_transform_2 i a * S384x4096.size a) (fun a => (Pipeline.Clip.of (cc0_transform_2 i a) (S384x4096.size a) (S16384x4096.size a)).extent (S384x4096.size a)) fun a => Pipeline.Clip.inb (Pipeline.Clip.ok_of (hstart0_2 i a))).WholeWords (EltTy.packing .f32)
  hwxs0_2 : ∀ i : grid0.Coords, EltTy.bits .f32 = 32 ∨ (Rect.unit (s := S384x4096) (fun _ => 0) (fun a => (Pipeline.Clip.of (cc0_transform_2 i a) (S384x4096.size a) (S16384x4096.size a)).extent (S384x4096.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S384x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S384x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S384x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S_, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)

variable [Facts₀]

class Facts : Prop extends Facts₀ where

variable [Facts]
-- ==== Proof.Channel.lean ====
/-
  The additive-noise channel as one function. Both programs compute, sample by sample,
  `y = x + s·n` with `s` the f32 word `0x3EA1E89B` (the rounding of `sqrt(1/10)`): the noise sample is scaled
  first, then added to the signal sample. No algebraic law is involved — the two sides apply the same two
  operations in the same order to the same literal word — so the function is stated once, at any float
  instance, and both programs are shown to compute it.
-/
import Idealize.ShloMosaic.PureOps

noncomputable section

namespace Cert.Channel

open Idealize.ShloMosaic

variable {F : FTy → Type} [FloatOps F]

/-- One output sample: the signal sample plus the noise sample times the fixed scale word. -/
def sample (a b : F .f32) : F .f32 :=
  FloatOps.addf a (FloatOps.mulf (FloatOps.ofBits .f32 0x3EA1E89B#32) b)

/-- The channel over arrays of one shape: sample by sample. -/
def channel {s : Shape} (x n : FVec F s .f32) : FVec F s .f32 := fun i => sample (x i) (n i)

theorem channel_apply {s : Shape} (x n : FVec F s .f32) (i : s.Idx) : channel x n i = sample (x i) (n i) := rfl

end Cert.Channel

end
-- ==== Proof.KernelPipe.lean ====
/-
  The pipeline of the channel kernel, run to its end (stated at any float instance).

  The grid has 43 points; point `t` stages rows `384·t ‥ 384·t + 383` of the signal and of the noise, all 4096 lanes,
  and writes the same rows of the result. 16384 = 42·384 + 256, so the block at point 42 overhangs the arrays by 128
  rows: its fetches land only the 256 rows inside the array in the staging buffer's leading rows, the buffer's other
  rows holding words nothing names, and its write-back writes only those 256 rows. The body loads both staging
  buffers whole, computes the channel sample by sample on ALL 384 rows, and stores the result's buffer whole; what it
  computes on the rows past the array's end is never written back.

  So the proof data names, at each point, the signal's and the noise's blocks filled out past the array's end with the
  zero word, and their channel; each window's obligation is stated on the rows its transfers move only (every window
  is loose), where the body's buffers agree with that data whatever filled the other rows: the channel is computed
  sample by sample, so its moved rows depend on the inputs' moved rows alone.
-/
import proofs.«408318_j72198400246424_3_alg».proof.Proof.Gen.Kernel.Skeleton
import proofs.«408318_j72198400246424_3_alg».proof.Proof.Gen.Kernel.Frame
import proofs.«408318_j72198400246424_3_alg».proof.Proof.Channel
import Idealize.ShloMosaic.Lib.Pipeline.Kit
import Idealize.ShloMosaic.Lib.Pipeline.Value
import Idealize.ShloMosaic.Lib.Tactic

noncomputable section

namespace Cert.Kernel.Pipe

open Cert.Kernel Cert.Kernel.Gen Cert.Channel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after the body -/

/-- The word the proof data puts on a staging buffer's rows past the array's end (no obligation reads it). -/
def pad : S384x4096.Idx → Elt F .f32 := fun _ => FloatOps.ofBits .f32 0#32

/-- The signal's block at point `t`: its rows inside the array, the other rows padded. -/
def sigBlk (c : Dev nD) (t : Fin cfg0.N) : S384x4096.Idx → Elt F .f32 :=
  win0_0.fill (grid0.coords t) pad (iblk m c 0 t)

/-- The noise's block at point `t`, likewise. -/
def noiseBlk (c : Dev nD) (t : Fin cfg0.N) : S384x4096.Idx → Elt F .f32 :=
  win0_1.fill (grid0.coords t) pad (iblk m c 1 t)

/-- The result's block at point `t`: the channel of the two, sample by sample over the whole staging block. -/
def outBlk (c : Dev nD) (t : Fin cfg0.N) : S384x4096.Idx → Elt F .f32 :=
  channel (sigBlk m c t) (noiseBlk m c t)

/-- The proof data of the one pipeline on core `c`: the arrays as the region finds them; after the body the three
    staging buffers at the blocks above; the region's invariant the scoped rest and the generator register, which the
    body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => sigBlk m c t
    | ⟨1, _⟩ => noiseBlk m c t
    | ⟨2, _⟩ => outBlk m c t
  Φ _ := Pipeline.ΦA spec0 c
  q _ := fullShare
  owed _ := 0

/-! ## What the body finds -/

/-- The signal's buffer has just been fetched: its block on the rows inside the array, `d` on the others. -/
theorem found_sig (c : Dev nD) (t : Fin cfg0.N) (d) :
    (dats m 0 c).before (0 : Fin 3) t d = win0_0.fill (grid0.coords t) d (iblk m c 0 t) := by
  rw [(dats m 0 c).before_fetched (0 : Fin 3) t (fetch0_0 t) d]; rfl

/-- The noise's likewise. -/
theorem found_noise (c : Dev nD) (t : Fin cfg0.N) (d) :
    (dats m 0 c).before (1 : Fin 3) t d = win0_1.fill (grid0.coords t) d (iblk m c 1 t) := by
  rw [(dats m 0 c).before_fetched (1 : Fin 3) t (fetch0_1 t) d]; rfl

/-- The result's buffer holds anything: it is written back at every point, so at every point it is fresh. -/
theorem found_out (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

/-! ## The body -/

/-- The body on any three whole staging buffers holding `X0`, `X1` and anything: two whole loads, the channel, a dead
    load of the result's buffer and one whole store — the result's buffer ends at the channel of what the other two
    hold, those unchanged. -/
theorem sound_body (c : Dev nD) (E : Set ℕ) (i : grid0.Coords)
    (a1 : Memref sig .tc .vmem S384x4096 .f32) (h1 : a1.IsWhole) (a2 : Memref sig .tc .vmem S384x4096 .f32) (h2 : a2.IsWhole)
    (a3 : Memref sig .tc .vmem S384x4096 .f32) (h3 : a3.IsWhole)
    (X0 X1 X2 : Vec F S384x4096 .f32) (K : PUnit → sProp 𝕄) :
    iprop((owns (c : Thread nD τ) a1 fullShare X0 ∗ owns (c : Thread nD τ) a2 fullShare X1 ∗ owns (c : Thread nD τ) a3 fullShare X2)
        ∗ (iprop(owns (c : Thread nD τ) a1 fullShare X0 ∗ owns (c : Thread nD τ) a2 fullShare X1
              ∗ owns (c : Thread nD τ) a3 fullShare (channel X0 X1)) -∗ K ⟨⟩))
      ⊢ wp frame (wpE (defs₀ (F := F)) Variants.none c none) E (cc0__awgn_kernel i a1 h1 a2 h2 a3 h3) K := by
  have hz : (![0, 0] : Fin 2 → Nat) = fun _ => 0 := funext fun a => by fin_cases a <;> rfl
  simp only [cc0__awgn_kernel_eq_skeleton]; unfold cc0__awgn_kernel_skel
  unfold owns
  iintro ⟨⟨⟨%f0, %hf0, H0⟩, ⟨%f1, %hf1, H1⟩, ⟨%f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- one store through the whole buffer leaves its payload; a load through the whole buffer reads the contents
  rw [View.read_writes_eq_canon _ _ _ (fun y => ⟨_, List.mem_singleton_self _, View.mem_set_unit_zero hz inb_S384x4096_S384x4096_0_0 y⟩),
    View.canon_unit_zero hz]
  simp only [View.readAt_eq_ld, View.ld_unit_zero (S := S384x4096) hz]
  rfl

/-- The library's obligation at every point, from `sound_body` at the point's staging buffers. The signal's and the
    noise's buffers arrive at their blocks filled out with any `d` and leave so; the result's leaves at the channel of
    those, whose rows inside the array are `outBlk`'s. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [found_sig m c t d0, found_noise m c t d1, found_out m c t d2]
  iapply (sound_body (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (win0_0.fill (grid0.coords t) d0 (iblk m c 0 t)) (win0_1.fill (grid0.coords t) d1 (iblk m c 1 t)) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- on the rows the transfers move, a block filled out with `d` and the same block padded agree
  have hs : win0_0.cut (grid0.coords t) (sigBlk m c t) = iblk m c 0 t := win0_0.cut_fill _ _ _
  have hn : win0_1.cut (grid0.coords t) (noiseBlk m c t) = iblk m c 1 t := win0_1.cut_fill _ _ _
  -- and so do the channels of the two pairs: sample by sample, a moved row of the channel reads moved rows only
  have ho : win0_2.cut (grid0.coords t) (channel (win0_0.fill (grid0.coords t) d0 (iblk m c 0 t)) (win0_1.fill (grid0.coords t) d1 (iblk m c 1 t)))
      = win0_2.cut (grid0.coords t) (outBlk m c t) := by
    have e0 : ∀ (d : S384x4096.Idx → Elt F .f32) (j : (win0_0.xblock (grid0.coords t)).Idx),
        win0_0.fill (grid0.coords t) d (iblk m c 0 t) (win0_0.xinj (grid0.coords t) j) = iblk m c 0 t j :=
      fun d j => win0_0.fill_xinj _ d _ j
    have e1 : ∀ (d : S384x4096.Idx → Elt F .f32) (j : (win0_1.xblock (grid0.coords t)).Idx),
        win0_1.fill (grid0.coords t) d (iblk m c 1 t) (win0_1.xinj (grid0.coords t) j) = iblk m c 1 t j :=
      fun d j => win0_1.fill_xinj _ d _ j
    funext j
    exact congrArg₂ sample ((e0 d0 j).trans (e0 pad j).symm) ((e1 d1 j).trans (e1 pad j).symm)
  isplitl [H0]
  · iexists d0
    change _ ⊢ owns (c : Thread nD τ) (st0_0 t) fullShare (win0_0.fill (grid0.coords t) d0 (win0_0.cut (grid0.coords t) (sigBlk m c t)))
    rw [hs]
  isplitl [H1]
  · iexists d1
    change _ ⊢ owns (c : Thread nD τ) (st0_1 t) fullShare (win0_1.fill (grid0.coords t) d1 (win0_1.cut (grid0.coords t) (noiseBlk m c t)))
    rw [hn]
  · iexists channel (win0_0.fill (grid0.coords t) d0 (iblk m c 0 t)) (win0_1.fill (grid0.coords t) d1 (iblk m c 1 t))
    change _ ⊢ owns (c : Thread nD τ) (st0_2 t) fullShare (win0_2.fill (grid0.coords t)
      (channel (win0_0.fill (grid0.coords t) d0 (iblk m c 0 t)) (win0_1.fill (grid0.coords t) d1 (iblk m c 1 t)))
      (win0_2.cut (grid0.coords t) (outBlk m c t)))
    rw [win0_2.fill_congr_cut (grid0.coords t) ho]

/-! ## The run -/

/-- At the compiled mesh, for any float values, from any memory with zero counters: every weakly fair execution of
    @main terminates, every array of the pipeline ending at what the library computes from the proof data (an input
    at its entry contents, the result at those overwritten by each point's write-back). -/
theorem run_main : θ_run defs (onTc (τ := τ) (main (F := F))) (s₀ m ρ) (Pipeline.FramePost cfgs (dats m) 0 (V m)) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl)

/-- The program runs, faults nowhere, and leaves its two argument arrays as they were. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

end Cert.Kernel.Pipe

end
-- ==== Proof.KernelIdealPipe.lean ====
/-
  The pipeline of the channel kernel, run to its end (stated at any float instance).

  The grid has 43 points; point `t` stages rows `384·t ‥ 384·t + 383` of the signal and of the noise, all 4096 lanes,
  and writes the same rows of the result. 16384 = 42·384 + 256, so the block at point 42 overhangs the arrays by 128
  rows: its fetches land only the 256 rows inside the array in the staging buffer's leading rows, the buffer's other
  rows holding words nothing names, and its write-back writes only those 256 rows. The body loads both staging
  buffers whole, computes the channel sample by sample on ALL 384 rows, and stores the result's buffer whole; what it
  computes on the rows past the array's end is never written back.

  So the proof data names, at each point, the signal's and the noise's blocks filled out past the array's end with the
  zero word, and their channel; each window's obligation is stated on the rows its transfers move only (every window
  is loose), where the body's buffers agree with that data whatever filled the other rows: the channel is computed
  sample by sample, so its moved rows depend on the inputs' moved rows alone.
-/
import proofs.«408318_j72198400246424_3_alg».proof.Proof.Gen.KernelIdeal.Skeleton
import proofs.«408318_j72198400246424_3_alg».proof.Proof.Gen.KernelIdeal.Frame
import proofs.«408318_j72198400246424_3_alg».proof.Proof.Channel
import Idealize.ShloMosaic.Lib.Pipeline.Kit
import Idealize.ShloMosaic.Lib.Pipeline.Value
import Idealize.ShloMosaic.Lib.Tactic

noncomputable section

namespace Cert.KernelIdeal.Pipe

open Cert.KernelIdeal Cert.KernelIdeal.Gen Cert.Channel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after the body -/

/-- The word the proof data puts on a staging buffer's rows past the array's end (no obligation reads it). -/
def pad : S384x4096.Idx → Elt F .f32 := fun _ => FloatOps.ofBits .f32 0#32

/-- The signal's block at point `t`: its rows inside the array, the other rows padded. -/
def sigBlk (c : Dev nD) (t : Fin cfg0.N) : S384x4096.Idx → Elt F .f32 :=
  win0_0.fill (grid0.coords t) pad (iblk m c 0 t)

/-- The noise's block at point `t`, likewise. -/
def noiseBlk (c : Dev nD) (t : Fin cfg0.N) : S384x4096.Idx → Elt F .f32 :=
  win0_1.fill (grid0.coords t) pad (iblk m c 1 t)

/-- The result's block at point `t`: the channel of the two, sample by sample over the whole staging block. -/
def outBlk (c : Dev nD) (t : Fin cfg0.N) : S384x4096.Idx → Elt F .f32 :=
  channel (sigBlk m c t) (noiseBlk m c t)

/-- The proof data of the one pipeline on core `c`: the arrays as the region finds them; after the body the three
    staging buffers at the blocks above; the region's invariant the scoped rest and the generator register, which the
    body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => sigBlk m c t
    | ⟨1, _⟩ => noiseBlk m c t
    | ⟨2, _⟩ => outBlk m c t
  Φ _ := Pipeline.ΦA spec0 c
  q _ := fullShare
  owed _ := 0

/-! ## What the body finds -/

/-- The signal's buffer has just been fetched: its block on the rows inside the array, `d` on the others. -/
theorem found_sig (c : Dev nD) (t : Fin cfg0.N) (d) :
    (dats m 0 c).before (0 : Fin 3) t d = win0_0.fill (grid0.coords t) d (iblk m c 0 t) := by
  rw [(dats m 0 c).before_fetched (0 : Fin 3) t (fetch0_0 t) d]; rfl

/-- The noise's likewise. -/
theorem found_noise (c : Dev nD) (t : Fin cfg0.N) (d) :
    (dats m 0 c).before (1 : Fin 3) t d = win0_1.fill (grid0.coords t) d (iblk m c 1 t) := by
  rw [(dats m 0 c).before_fetched (1 : Fin 3) t (fetch0_1 t) d]; rfl

/-- The result's buffer holds anything: it is written back at every point, so at every point it is fresh. -/
theorem found_out (c : Dev nD) (t : Fin cfg0.N) (d) : (dats m 0 c).before (2 : Fin 3) t d = d := by
  refine (dats m 0 c).before_out_reset (2 : Fin 3) rfl t ?_ d
  by_cases h : t.val = 0
  · exact .inl h
  · exact .inr ⟨h, flush0_2 _⟩

/-! ## The body -/

/-- The body on any three whole staging buffers holding `X0`, `X1` and anything: two whole loads, the channel, a dead
    load of the result's buffer and one whole store — the result's buffer ends at the channel of what the other two
    hold, those unchanged. -/
theorem sound_body (c : Dev nD) (E : Set ℕ) (i : grid0.Coords)
    (a1 : Memref sig .tc .vmem S384x4096 .f32) (h1 : a1.IsWhole) (a2 : Memref sig .tc .vmem S384x4096 .f32) (h2 : a2.IsWhole)
    (a3 : Memref sig .tc .vmem S384x4096 .f32) (h3 : a3.IsWhole)
    (X0 X1 X2 : Vec F S384x4096 .f32) (K : PUnit → sProp 𝕄) :
    iprop((owns (c : Thread nD τ) a1 fullShare X0 ∗ owns (c : Thread nD τ) a2 fullShare X1 ∗ owns (c : Thread nD τ) a3 fullShare X2)
        ∗ (iprop(owns (c : Thread nD τ) a1 fullShare X0 ∗ owns (c : Thread nD τ) a2 fullShare X1
              ∗ owns (c : Thread nD τ) a3 fullShare (channel X0 X1)) -∗ K ⟨⟩))
      ⊢ wp frame (wpE (defs₀ (F := F)) Variants.none c none) E (cc0__awgn_kernel i a1 h1 a2 h2 a3 h3) K := by
  have hz : (![0, 0] : Fin 2 → Nat) = fun _ => 0 := funext fun a => by fin_cases a <;> rfl
  simp only [cc0__awgn_kernel_eq_skeleton]; unfold cc0__awgn_kernel_skel
  unfold owns
  iintro ⟨⟨⟨%f0, %hf0, H0⟩, ⟨%f1, %hf1, H1⟩, ⟨%f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- one store through the whole buffer leaves its payload; a load through the whole buffer reads the contents
  rw [View.read_writes_eq_canon _ _ _ (fun y => ⟨_, List.mem_singleton_self _, View.mem_set_unit_zero hz inb_S384x4096_S384x4096_0_0 y⟩),
    View.canon_unit_zero hz]
  simp only [View.readAt_eq_ld, View.ld_unit_zero (S := S384x4096) hz]
  rfl

/-- The library's obligation at every point, from `sound_body` at the point's staging buffers. The signal's and the
    noise's buffers arrive at their blocks filled out with any `d` and leave so; the result's leaves at the channel of
    those, whose rows inside the array are `outBlk`'s. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [found_sig m c t d0, found_noise m c t d1, found_out m c t d2]
  iapply (sound_body (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (win0_0.fill (grid0.coords t) d0 (iblk m c 0 t)) (win0_1.fill (grid0.coords t) d1 (iblk m c 1 t)) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- on the rows the transfers move, a block filled out with `d` and the same block padded agree
  have hs : win0_0.cut (grid0.coords t) (sigBlk m c t) = iblk m c 0 t := win0_0.cut_fill _ _ _
  have hn : win0_1.cut (grid0.coords t) (noiseBlk m c t) = iblk m c 1 t := win0_1.cut_fill _ _ _
  -- and so do the channels of the two pairs: sample by sample, a moved row of the channel reads moved rows only
  have ho : win0_2.cut (grid0.coords t) (channel (win0_0.fill (grid0.coords t) d0 (iblk m c 0 t)) (win0_1.fill (grid0.coords t) d1 (iblk m c 1 t)))
      = win0_2.cut (grid0.coords t) (outBlk m c t) := by
    have e0 : ∀ (d : S384x4096.Idx → Elt F .f32) (j : (win0_0.xblock (grid0.coords t)).Idx),
        win0_0.fill (grid0.coords t) d (iblk m c 0 t) (win0_0.xinj (grid0.coords t) j) = iblk m c 0 t j :=
      fun d j => win0_0.fill_xinj _ d _ j
    have e1 : ∀ (d : S384x4096.Idx → Elt F .f32) (j : (win0_1.xblock (grid0.coords t)).Idx),
        win0_1.fill (grid0.coords t) d (iblk m c 1 t) (win0_1.xinj (grid0.coords t) j) = iblk m c 1 t j :=
      fun d j => win0_1.fill_xinj _ d _ j
    funext j
    exact congrArg₂ sample ((e0 d0 j).trans (e0 pad j).symm) ((e1 d1 j).trans (e1 pad j).symm)
  isplitl [H0]
  · iexists d0
    change _ ⊢ owns (c : Thread nD τ) (st0_0 t) fullShare (win0_0.fill (grid0.coords t) d0 (win0_0.cut (grid0.coords t) (sigBlk m c t)))
    rw [hs]
  isplitl [H1]
  · iexists d1
    change _ ⊢ owns (c : Thread nD τ) (st0_1 t) fullShare (win0_1.fill (grid0.coords t) d1 (win0_1.cut (grid0.coords t) (noiseBlk m c t)))
    rw [hn]
  · iexists channel (win0_0.fill (grid0.coords t) d0 (iblk m c 0 t)) (win0_1.fill (grid0.coords t) d1 (iblk m c 1 t))
    change _ ⊢ owns (c : Thread nD τ) (st0_2 t) fullShare (win0_2.fill (grid0.coords t)
      (channel (win0_0.fill (grid0.coords t) d0 (iblk m c 0 t)) (win0_1.fill (grid0.coords t) d1 (iblk m c 1 t)))
      (win0_2.cut (grid0.coords t) (outBlk m c t)))
    rw [win0_2.fill_congr_cut (grid0.coords t) ho]

/-! ## The run -/

/-- At the compiled mesh, for any float values, from any memory with zero counters: every weakly fair execution of
    @main terminates, every array of the pipeline ending at what the library computes from the proof data (an input
    at its entry contents, the result at those overwritten by each point's write-back). -/
theorem run_main : θ_run defs (onTc (τ := τ) (main (F := F))) (s₀ m ρ) (Pipeline.FramePost cfgs (dats m) 0 (V m)) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl)

/-- The program runs, faults nowhere, and leaves its two argument arrays as they were. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

end Cert.KernelIdeal.Pipe

end
-- ==== Proof.KernelIdealValue.lean ====
/-
  The result array after the run, in closed form: the channel of the two argument arrays.

  What point `t` writes back is the rows inside the array of the result's staging block, and those are the channel's
  rows under the same block: a moved row of the result's block reads the same moved row of the signal's and of the
  noise's blocks, which are the arrays' rows there (the three windows have one index map and one cut). The 43 blocks
  cover the array — row `r` lies in the block of point `r / 384`, whose rows inside the array are 384, or 256 at
  the last point (16384 = 42·384 + 256) — so every entry of the result ends at the channel's entry.
-/
import proofs.«408318_j72198400246424_3_alg».proof.Proof.KernelIdealPipe

noncomputable section

namespace Cert.KernelIdeal.Pipe

open Cert.KernelIdeal Cert.KernelIdeal.Gen Cert.Channel
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The channel of the two argument arrays as launched: what the result is shown to be. -/
abbrev chanArr (c : Dev nD) : Buf (Elt F) ((c : Thread nD τ).loc main_v0) :=
  channel (s := S16384x4096) (m ((c : Thread nD τ).loc main_arg0)) (m ((c : Thread nD τ).loc main_arg1))

/-- What point `t` writes back is the channel's block at `t`. -/
theorem flushed_eq (c : Dev nD) (t : Fin cfg0.N) :
    (dats m 0 c).flushed (2 : Fin 3) t = ((cfg0.win 2).blk t).view.read (Elt F) (chanArr m c) := by
  have e0 : ∀ j : (win0_0.xblock (grid0.coords t)).Idx,
      sigBlk m c t (win0_0.xinj (grid0.coords t) j) = iblk m c 0 t j := fun j => win0_0.fill_xinj _ _ _ j
  have e1 : ∀ j : (win0_1.xblock (grid0.coords t)).Idx,
      noiseBlk m c t (win0_1.xinj (grid0.coords t) j) = iblk m c 1 t j := fun j => win0_1.fill_xinj _ _ _ j
  funext j
  exact congrArg₂ sample (e0 j) (e1 j)

/-- The result's window on the grid: its block index on the rows is the point and on the lanes zero; it moves all
    4096 lanes of 384 rows, of 256 at the last point. -/
theorem sched : ∀ t : Fin cfg0.N,
    win0_2.index t 0 = t.val ∧ win0_2.xsize (grid0.coords t) 0 = (if t.val = 42 then 256 else 384)
      ∧ win0_2.index t 1 = 0 ∧ win0_2.xsize (grid0.coords t) 1 = 4096 :=
  (by decide +kernel : ∀ t : Fin grid0.N,
    win0_2.index t 0 = t.val ∧ win0_2.xsize (grid0.coords t) 0 = (if t.val = 42 then 256 else 384)
      ∧ win0_2.index t 1 = 0 ∧ win0_2.xsize (grid0.coords t) 1 = 4096)

/-- An entry of the array is under point `t`'s block iff on each axis its coordinate is among the block's moved ones. -/
theorem mem_blk (t : Fin cfg0.N) (i : S16384x4096.Idx) :
    i ∈ ((cfg0.win 2).blk t).view.set ↔ ∀ a, win0_2.index t a * win0_2.size a ≤ (i a : Nat)
      ∧ (i a : Nat) < win0_2.index t a * win0_2.size a + win0_2.xsize (grid0.coords t) a := by
  show i ∈ ((View.whole main_v0).slice (win0_2.rect t)).set ↔ _
  rw [View.set_slice_whole, Rect.mem_set_unit]

/-- Every entry is under the block of the point its row falls in. -/
theorem covered (i : S16384x4096.Idx) :
    ∃ t : Fin cfg0.N, (cfg0.win 2).flush t = true ∧ i ∈ ((cfg0.win 2).blk t).view.set := by
  have h0 : (i 0 : Nat) < 16384 := (i 0).isLt
  have h1 : (i 1 : Nat) < 4096 := (i 1).isLt
  have hN : (i 0 : Nat) / 384 < cfg0.N := by rw [show cfg0.N = 43 from N_0]; omega
  refine ⟨⟨(i 0 : Nat) / 384, hN⟩, flush0_2 _, ?_⟩
  rw [mem_blk]
  obtain ⟨hi, hx, hi1, hx1⟩ := sched ⟨(i 0 : Nat) / 384, hN⟩
  intro a
  match a with
  | ⟨0, _⟩ =>
    show win0_2.index ⟨(i 0 : Nat) / 384, hN⟩ 0 * 384 ≤ (i 0 : Nat)
      ∧ (i 0 : Nat) < win0_2.index ⟨(i 0 : Nat) / 384, hN⟩ 0 * 384 + win0_2.xsize (grid0.coords ⟨(i 0 : Nat) / 384, hN⟩) 0
    rw [hi, hx]
    dsimp only
    split <;> omega
  | ⟨1, _⟩ =>
    show win0_2.index ⟨(i 0 : Nat) / 384, hN⟩ 1 * 4096 ≤ (i 1 : Nat)
      ∧ (i 1 : Nat) < win0_2.index ⟨(i 0 : Nat) / 384, hN⟩ 1 * 4096 + win0_2.xsize (grid0.coords ⟨(i 0 : Nat) / 384, hN⟩) 1
    rw [hi1, hx1]
    omega

/-- The result array ends at the channel of the argument arrays. -/
theorem result_eq (c : Dev nD) : (dats m 0 c).arrAt (2 : Fin 3) cfg0.N = chanArr m c :=
  (dats m 0 c).arrAt_eq_of_cover (2 : Fin 3) (chanArr m c) (fun t _ => flushed_eq m c t) covered

/-- The run with the result named: every weakly fair execution terminates with the result array at the channel of
    the argument arrays, and those as they were. -/
theorem run_value :
    θ_run defs (onTc (τ := τ) (main (F := F))) ⟨m, fun _ => 0, ρ⟩ (fun r => ∀ c : Dev nD,
      r.2.mem ((c.tc : Thread nD τ).loc main_v0) = chanArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (result_eq m c),
      ((h c).1 0).trans (((dats m 0 c).arrAt_in 0 rfl _).trans (V_main_arg0 m c)),
      ((h c).1 1).trans (((dats m 0 c).arrAt_in 1 rfl _).trans (V_main_arg1 m c))⟩) (run_main m ρ)

end Cert.KernelIdeal.Pipe

end
-- ==== Proof.RefValue.lean ====
/-
  The reference computes the channel: its four host operations — the scale word, its broadcast to the arrays'
  shape, the product with the noise, the sum with the signal — read at an index are the signal sample plus the scale
  word times the noise sample.
-/
import proofs.«408318_j72198400246424_3_alg».proof.Proof.Gen.ReferenceIdeal.Run
import proofs.«408318_j72198400246424_3_alg».proof.Proof.Gen.ReferenceIdeal.Read
import proofs.«408318_j72198400246424_3_alg».proof.Proof.Channel

noncomputable section

namespace Cert.ReferenceIdeal.Chan

open Cert.ReferenceIdeal Cert.ReferenceIdeal.Gen Cert.Channel Idealize.ShloMosaic

variable {F : FTy → Type} [FloatOps F]

/-- The term the reference's run ends at, for signal `x` and noise `n`, is their channel. -/
theorem result_is_channel (x n : FVec F S16384x4096 .f32) :
    addf x (mulf (broadcastInDim S16384x4096 ![] bcast_S_S16384x4096 (constant S_ .f32 0x3EA1E89B#32)) n)
      = channel x n := by
  rw [Read.val_main_v2_eq]
  funext i
  rw [Read.val_main_v2_apply, Read.val_main_v1_apply, Read.val_main_v0_apply, Read.val_main_cst_apply]
  rfl

end Cert.ReferenceIdeal.Chan

end
-- ==== Proof.lean ====
/-
  The additive-noise channel `y = x + s·n` over f32[16384, 4096], `s` the f32 word 0x3EA1E89B: a kernel that walks the
  rows in 43 blocks of 384 (the last block overhangs the arrays by 128 rows, which its transfers cut off) against the
  same expression on whole arrays.

  Both sides scale the noise sample by the same word and then add the signal sample, so at the extended reals they
  are one function, entry by entry, with no algebraic law between them and no use of the inputs' finiteness:
  * the kernel's result array ends at the channel of its argument arrays — each point writes back the channel's rows
    under its block, and the 43 blocks cover the array (`Pipe.run_value`);
  * the reference's four host operations read at an index are the channel (`Chan.result_is_channel`).
  The three frames are the two pipelines' runs (the word-level program's is the same run, read at the arguments) and
  the reference's run with its result dropped. Nothing was rewritten when the kernel was idealized, so that
  conjunct is `True`.
-/
import proofs.«408318_j72198400246424_3_alg».proof.Defs
import proofs.«408318_j72198400246424_3_alg».proof.Proof.Gen.Pre_finite_inputs
import proofs.«408318_j72198400246424_3_alg».proof.Proof.KernelPipe
import proofs.«408318_j72198400246424_3_alg».proof.Proof.KernelIdealValue
import proofs.«408318_j72198400246424_3_alg».proof.Proof.RefValue

noncomputable section

namespace Cert.Proof

open Idealize.ShloMosaic Idealize.SL.Sem

/-- The word-level kernel runs and leaves its arguments as they were. -/
theorem frame_kernel : Cert.frame_Kernel := fun m ρ _ => Cert.Kernel.Pipe.frame (F := Bits) m ρ

/-- So does the idealized kernel. -/
theorem frame_kernel_ideal : Cert.frame_KernelIdeal := fun m ρ _ => Cert.KernelIdeal.Pipe.frame (F := Ideal) m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the channel of the arguments. -/
theorem algebraic : Cert.algebraic_KernelIdeal_ReferenceIdeal := by
  intro m ρ m' ρ' _ hagree
  refine ⟨fun c => Cert.KernelIdeal.Pipe.chanArr m c, Cert.KernelIdeal.Pipe.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Chan.result_is_channel, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
